-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S128x256 : Shape := ⟨2, ![128, 256]⟩
abbrev S256x1 : Shape := ⟨2, ![256, 1]⟩
abbrev S2x1048576 : Shape := ⟨2, ![2, 1048576]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  main_v18

def fn {F : FTy → Type} [FloatOps F] (main_arg0 : FVec F S64x1024x64 .f32) (main_arg1 : FVec F S128x256 .f32) (main_arg2 : FVec F S128x256 .f32) (main_arg3 : FVec F S256x1 .f32) (main_arg4 : IVec S2x1048576 32) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_v13 main_v16
-- ==== Kernel.lean ====
abbrev S64x1024x64 : Shape := ⟨3, ![64, 1024, 64]⟩
abbrev S128x256 : Shape := ⟨2, ![128, 256]⟩
abbrev S256x1 : Shape := ⟨2, ![256, 1]⟩
abbrev S2x1048576 : Shape := ⟨2, ![2, 1048576]⟩
abbrev S65536x64 : Shape := ⟨2, ![65536, 64]⟩
abbrev S1x1048576 : Shape := ⟨2, ![1, 1048576]⟩
abbrev S1048576 : Shape := ⟨1, ![1048576]⟩
abbrev S_ : Shape := ⟨0, ![]⟩
abbrev S1048576x1 : Shape := ⟨2, ![1048576, 1]⟩
abbrev S1048576x64 : Shape := ⟨2, ![1048576, 64]⟩
abbrev S64x256 : Shape := ⟨2, ![64, 256]⟩
abbrev S1x256 : Shape := ⟨2, ![1, 256]⟩
abbrev S4096x64 : Shape := ⟨2, ![4096, 64]⟩
abbrev S4096x1 : Shape := ⟨2, ![4096, 1]⟩
abbrev S4096x256 : Shape := ⟨2, ![4096, 256]⟩
abbrev S4096 : Shape := ⟨1, ![4096]⟩

abbrev nBuf : Space → Nat
  | .hbm => 40
  | .vmem => 11
  | .smem => 0
  | _ => 0

abbrev bufTy : (tb : Table) → Fin (tcTables nBuf tb) → BufTy
  | .hbm, ⟨0, _⟩ => ⟨S64x1024x64, .f32⟩
  | .hbm, ⟨1, _⟩ => ⟨S128x256, .f32⟩
  | .hbm, ⟨2, _⟩ => ⟨S128x256, .f32⟩
  | .hbm, ⟨3, _⟩ => ⟨S256x1, .f32⟩
  | .hbm, ⟨4, _⟩ => ⟨S2x1048576, .i32⟩
  | .hbm, ⟨5, _⟩ => ⟨S65536x64, .f32⟩
  | .hbm, ⟨6, _⟩ => ⟨S65536x64, .bf16⟩
  | .hbm, ⟨7, _⟩ => ⟨S1x1048576, .i32⟩
  | .hbm, ⟨8, _⟩ => ⟨S1048576, .i32⟩
  | .hbm, ⟨9, _⟩ => ⟨S1x1048576, .i32⟩
  | .hbm, ⟨10, _⟩ => ⟨S1048576, .i32⟩
  | .hbm, ⟨11, _⟩ => ⟨S_, .i32⟩
  | .hbm, ⟨12, _⟩ => ⟨S1048576, .i32⟩
  | .hbm, ⟨13, _⟩ => ⟨S1048576, .i1⟩
  | .hbm, ⟨14, _⟩ => ⟨S_, .i32⟩
  | .hbm, ⟨15, _⟩ => ⟨S1048576, .i32⟩
  | .hbm, ⟨16, _⟩ => ⟨S1048576, .i32⟩
  | .hbm, ⟨17, _⟩ => ⟨S1048576, .i32⟩
  | .hbm, ⟨18, _⟩ => ⟨S1048576x1, .i32⟩
  | .hbm, ⟨19, _⟩ => ⟨S1048576x64, .bf16⟩
  | .hbm, ⟨20, _⟩ => ⟨S_, .i32⟩
  | .hbm, ⟨21, _⟩ => ⟨S1048576, .i32⟩
  | .hbm, ⟨22, _⟩ => ⟨S1048576, .i1⟩
  | .hbm, ⟨23, _⟩ => ⟨S_, .i32⟩
  | .hbm, ⟨24, _⟩ => ⟨S1048576, .i32⟩
  | .hbm, ⟨25, _⟩ => ⟨S1048576, .i32⟩
  | .hbm, ⟨26, _⟩ => ⟨S1048576, .i32⟩
  | .hbm, ⟨27, _⟩ => ⟨S1048576x1, .i32⟩
  | .hbm, ⟨28, _⟩ => ⟨S1048576x64, .bf16⟩
  | .hbm, ⟨29, _⟩ => ⟨S64x256, .f32⟩
  | .hbm, ⟨30, _⟩ => ⟨S64x256, .bf16⟩
  | .hbm, ⟨31, _⟩ => ⟨S64x256, .f32⟩
  | .hbm, ⟨32, _⟩ => ⟨S64x256, .bf16⟩
  | .hbm, ⟨33, _⟩ => ⟨S64x256, .f32⟩
  | .hbm, ⟨34, _⟩ => ⟨S64x256, .bf16⟩
  | .hbm, ⟨35, _⟩ => ⟨S64x256, .f32⟩
  | .hbm, ⟨36, _⟩ => ⟨S64x256, .bf16⟩
  | .hbm, ⟨37, _⟩ => ⟨S1x256, .f32⟩
  | .hbm, ⟨38, _⟩ => ⟨S1048576x1, .f32⟩
  | .hbm, ⟨39, _⟩ => ⟨S1048576, .f32⟩
  | .local _ .vmem, ⟨0, _⟩ => ⟨S4096x64, .bf16⟩
  | .local _ .vmem, ⟨1, _⟩ => ⟨S4096x64, .bf16⟩
  | .local _ .vmem, ⟨2, _⟩ => ⟨S4096x64, .bf16⟩
  | .local _ .vmem, ⟨3, _⟩ => ⟨S4096x64, .bf16⟩
  | .local _ .vmem, ⟨4, _⟩ => ⟨S64x256, .bf16⟩
  | .local _ .vmem, ⟨5, _⟩ => ⟨S64x256, .bf16⟩
  | .local _ .vmem, ⟨6, _⟩ => ⟨S64x256, .bf16⟩
  | .local _ .vmem, ⟨7, _⟩ => ⟨S64x256, .bf16⟩
  | .local _ .vmem, ⟨8, _⟩ => ⟨S1x256, .f32⟩
  | .local _ .vmem, ⟨9, _⟩ => ⟨S4096x1, .f32⟩
  | .local _ .vmem, ⟨10, _⟩ => ⟨S4096x1, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64x1024x64_S65536x64 : S64x1024x64.ShapeCasts S65536x64
  bitsLt_bf16_f32 : FTy.bits .bf16 < FTy.bits .f32
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  slices_S128x256_S64x256_0_0 : S128x256.Slices ![0, 0] S64x256
  slices_S128x256_S64x256_64_0 : S128x256.Slices ![64, 0] S64x256
  transposes_S256x1_S1x256_1_0 : S256x1.Transposes [1, 0] S1x256
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  reduces_S4096x256_S4096 : S4096x256.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S1048576x1_S1048576 : S1048576x1.ShapeCasts S1048576
  gather_S65536x64_S1048576x1_S1048576x64_1_0_n_n_0_1_164_wf : GatherDims.WF S65536x64 S1048576x1 S1048576x64 [1] [0] [] [0] [] 1 ![1, 64]
  dot_S4096x64_S64x256_S4096x256_1_0_0_1_n_n_wf : DotDims.WF S4096x64 S64x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S1048576x64.size a
  hwx0_0 : ∀ i : grid0.Coords, EltTy.bits .bf16 = 32 ∨ (Rect.block (s := S1048576x64) S4096x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S1048576x64.size a
  hwx0_1 : ∀ i : grid0.Coords, EltTy.bits .bf16 = 32 ∨ (Rect.block (s := S1048576x64) S4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .bf16 = 32 ∨ (Rect.block (s := S64x256) S64x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .bf16 = 32 ∨ (Rect.block (s := S64x256) S64x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .bf16 = 32 ∨ (Rect.block (s := S64x256) S64x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .bf16 = 32 ∨ (Rect.block (s := S64x256) S64x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S1048576x1.size a
  hwx0_7 : ∀ i : grid0.Coords, EltTy.bits .f32 = 32 ∨ (Rect.block (s := S1048576x1) S4096x1.size (cc0_transform_7 i) (hinb0_7 i)).WholeWords (EltTy.packing .f32)

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

abbrev win0_0 : Pipeline.Window sig grid0 :=
  Pipeline.Window.ofSpec (Memref.whole main_v12) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S4096x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x1024x64 : Shape := ⟨3, ![64, 1024, 64]⟩
abbrev S128x256 : Shape := ⟨2, ![128, 256]⟩
abbrev S256x1 : Shape := ⟨2, ![256, 1]⟩
abbrev S2x1048576 : Shape := ⟨2, ![2, 1048576]⟩
abbrev S65536x64 : Shape := ⟨2, ![65536, 64]⟩
abbrev S1x1048576 : Shape := ⟨2, ![1, 1048576]⟩
abbrev S1048576 : Shape := ⟨1, ![1048576]⟩
abbrev S_ : Shape := ⟨0, ![]⟩
abbrev S1048576x1 : Shape := ⟨2, ![1048576, 1]⟩
abbrev S1048576x64 : Shape := ⟨2, ![1048576, 64]⟩
abbrev S1048576x128 : Shape := ⟨2, ![1048576, 128]⟩
abbrev S1048576x256 : Shape := ⟨2, ![1048576, 256]⟩

abbrev nBuf : Space → Nat
  | .hbm => 43
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S128x256, .f32⟩
  | .hbm, ⟨2, _⟩ => ⟨S128x256, .f32⟩
  | .hbm, ⟨3, _⟩ => ⟨S256x1, .f32⟩
  | .hbm, ⟨4, _⟩ => ⟨S2x1048576, .i32⟩
  | .hbm, ⟨5, _⟩ => ⟨S65536x64, .f32⟩
  | .hbm, ⟨6, _⟩ => ⟨S1x1048576, .i32⟩
  | .hbm, ⟨7, _⟩ => ⟨S1048576, .i32⟩
  | .hbm, ⟨8, _⟩ => ⟨S1x1048576, .i32⟩
  | .hbm, ⟨9, _⟩ => ⟨S1048576, .i32⟩
  | .hbm, ⟨10, _⟩ => ⟨S_, .i32⟩
  | .hbm, ⟨11, _⟩ => ⟨S1048576, .i32⟩
  | .hbm, ⟨12, _⟩ => ⟨S1048576, .i1⟩
  | .hbm, ⟨13, _⟩ => ⟨S_, .i32⟩
  | .hbm, ⟨14, _⟩ => ⟨S1048576, .i32⟩
  | .hbm, ⟨15, _⟩ => ⟨S1048576, .i32⟩
  | .hbm, ⟨16, _⟩ => ⟨S1048576, .i32⟩
  | .hbm, ⟨17, _⟩ => ⟨S1048576x1, .i32⟩
  | .hbm, ⟨18, _⟩ => ⟨S1048576x64, .f32⟩
  | .hbm, ⟨19, _⟩ => ⟨S_, .i32⟩
  | .hbm, ⟨20, _⟩ => ⟨S1048576, .i32⟩
  | .hbm, ⟨21, _⟩ => ⟨S1048576, .i1⟩
  | .hbm, ⟨22, _⟩ => ⟨S_, .i32⟩
  | .hbm, ⟨23, _⟩ => ⟨S1048576, .i32⟩
  | .hbm, ⟨24, _⟩ => ⟨S1048576, .i32⟩
  | .hbm, ⟨25, _⟩ => ⟨S1048576, .i32⟩
  | .hbm, ⟨26, _⟩ => ⟨S1048576x1, .i32⟩
  | .hbm, ⟨27, _⟩ => ⟨S1048576x64, .f32⟩
  | .hbm, ⟨28, _⟩ => ⟨S1048576x128, .f32⟩
  | .hbm, ⟨29, _⟩ => ⟨S1048576x256, .f32⟩
  | .hbm, ⟨30, _⟩ => ⟨S1048576x256, .f32⟩
  | .hbm, ⟨31, _⟩ => ⟨S1048576x256, .f32⟩
  | .hbm, ⟨32, _⟩ => ⟨S_, .f32⟩
  | .hbm, ⟨33, _⟩ => ⟨S1048576x256, .f32⟩
  | .hbm, ⟨34, _⟩ => ⟨S1048576x256, .f32⟩
  | .hbm, ⟨35, _⟩ => ⟨S_, .f32⟩
  | .hbm, ⟨36, _⟩ => ⟨S1048576x256, .f32⟩
  | .hbm, ⟨37, _⟩ => ⟨S1048576x256, .f32⟩
  | .hbm, ⟨38, _⟩ => ⟨S1048576x256, .f32⟩
  | .hbm, ⟨39, _⟩ => ⟨S1048576x256, .f32⟩
  | .hbm, ⟨40, _⟩ => ⟨S1048576x256, .f32⟩
  | .hbm, ⟨41, _⟩ => ⟨S1048576x1, .f32⟩
  | .hbm, ⟨42, _⟩ => ⟨S1048576, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]

class Facts₀ : Prop where
  shapeCasts_S64x1024x64_S65536x64 : S64x1024x64.ShapeCasts S65536x64
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x64_S1048576x64_S1048576x128_d1 : Shape.Concatenates [S1048576x64, S1048576x64] S1048576x128 1
  bcast_S_S1048576x256 : S_.BroadcastsInDim S1048576x256 (![] : Fin 0 → Fin S1048576x256.rank)
  shapeCasts_S1048576x1_S1048576 : S1048576x1.ShapeCasts S1048576
  gather_S65536x64_S1048576x1_S1048576x64_1_0_n_n_0_1_164_wf : GatherDims.WF S65536x64 S1048576x1 S1048576x64 [1] [0] [] [0] [] 1 ![1, 64]
  dot_S1048576x128_S128x256_S1048576x256_1_0_0_1_n_n_wf : DotDims.WF S1048576x128 S128x256 S1048576x256 [1] [0] [0] [1] [] []
  dot_S1048576x256_S256x1_S1048576x1_1_0_0_1_n_n_wf : DotDims.WF S1048576x256 S256x1 S1048576x1 [1] [0] [0] [1] [] []

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def dot_S1048576x128_S128x256_S1048576x256_1_0_0_1_n_n : DotDims S1048576x128 S128x256 S1048576x256 where
  lhsContracting := [1]
  rhsContracting := [0]
  lhsNonContracting := [0]
  rhsNonContracting := [1]
  lhsBatch := []
  rhsBatch := []
  wf := dot_S1048576x128_S128x256_S1048576x256_1_0_0_1_n_n_wf
def dot_S1048576x256_S256x1_S1048576x1_1_0_0_1_n_n : DotDims S1048576x256 S256x1 S1048576x1 where
  lhsContracting := [1]
  rhsContracting := [0]
  lhsNonContracting := [0]
  rhsNonContracting := [1]
  lhsBatch := []
  rhsBatch := []
  wf := dot_S1048576x256_S256x1_S1048576x1_1_0_0_1_n_n_wf

class Facts : Prop extends Facts₀ where

variable [Facts]
-- ==== Proof.KPayload.lean ====
/-
  What the kernel body stores for one tile of 4096 edges, read at one edge of the tile.

  The body multiplies the tile's scope rows by the upper half of a weight and its goal rows by the lower half (two
  matrix products into zero accumulators, added), once for the gate weight and once for the value weight, forms
  `(g·σ(g))·v`, scales each hidden unit by the output row and sums the 256 hidden units of a row. At row `r`
  this is the sum over `h` of `((g·σ(g))·v)·wo[0,h]` with
  `g = ∑ k, s[r,k]·gt[k,h] + ∑ k, q[r,k]·gb[k,h]` and `v` the same with the value weight's halves.
-/
import proofs.«122343_j19799799234919_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx

abbrev tileDot := dot_S4096x64_S64x256_S4096x256_1_0_0_1_n_n

theorem lhs_tile_0 (i : S4096x256.Idx) (q : dot_S4096x64_S64x256_S4096x256_1_0_0_1_n_n.contr.Idx) :
    (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide), dif_pos (show (0 : Fin S4096x64.rank) ∈ dot_S4096x64_S64x256_S4096x256_1_0_0_1_n_n.lhsNonContracting by decide)]
  rfl
theorem lhs_tile_1 (i : S4096x256.Idx) (q : dot_S4096x64_S64x256_S4096x256_1_0_0_1_n_n.contr.Idx) :
    (dot_S4096x64_S64x256_S4096x256_1_0_0_1_n_n.lhsIdx i q 1).val = (q ⟨0, by decide⟩).val :=
  dot_S4096x64_S64x256_S4096x256_1_0_0_1_n_n.lhsIdx_val_of_single rfl i q
theorem rhs_tile_0 (i : S4096x256.Idx) (q : dot_S4096x64_S64x256_S4096x256_1_0_0_1_n_n.contr.Idx) :
    (dot_S4096x64_S64x256_S4096x256_1_0_0_1_n_n.rhsIdx i q 0).val = (q ⟨0, by decide⟩).val :=
  dot_S4096x64_S64x256_S4096x256_1_0_0_1_n_n.rhsIdx_val_of_single rfl i q
theorem rhs_tile_1 (i : S4096x256.Idx) (q : dot_S4096x64_S64x256_S4096x256_1_0_0_1_n_n.contr.Idx) :
    (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide), dif_pos (show (1 : Fin S64x256.rank) ∈ dot_S4096x64_S64x256_S4096x256_1_0_0_1_n_n.rhsNonContracting by decide)]
  rfl

/-- A [4096,64] by [64,256] product into the zero accumulator at (r, h): the sum over the 64 shared positions. -/
theorem tileDot_apply (l : FVec Ideal S4096x64 .bf16) (w : FVec Ideal S64x256 .bf16) (r : Fin 4096) (h : Fin 256) :
    matmul dot_S4096x64_S64x256_S4096x256_1_0_0_1_n_n none l w (constant S4096x256 .f32 0x00000000#32) (ix2 r h)
      = ∑ k : Fin 64, l (ix2 r k) * w (ix2 k h) := by
  refine (Ideal.matmul_constant_zero_apply dot_S4096x64_S64x256_S4096x256_1_0_0_1_n_n none l w (ix2 r h)).trans ?_
  rw [← Equiv.sum_comp (ValueIdx.contrEquiv1 dot_S4096x64_S64x256_S4096x256_1_0_0_1_n_n 64 rfl rfl).symm]
  refine Finset.sum_congr rfl fun k _ => ?_
  have hk := ValueIdx.contrEquiv1_symm_val dot_S4096x64_S64x256_S4096x256_1_0_0_1_n_n 64 rfl rfl k
  have el : dot_S4096x64_S64x256_S4096x256_1_0_0_1_n_n.lhsIdx (ix2 r h) ((ValueIdx.contrEquiv1 dot_S4096x64_S64x256_S4096x256_1_0_0_1_n_n 64 rfl rfl).symm k) = ix2 r k := funext fun a => Fin.ext (by
    match a with
    | ⟨0, _⟩ => exact lhs_tile_0 _ _
    | ⟨1, _⟩ => exact (lhs_tile_1 _ _).trans hk)
  have er : dot_S4096x64_S64x256_S4096x256_1_0_0_1_n_n.rhsIdx (ix2 r h) ((ValueIdx.contrEquiv1 dot_S4096x64_S64x256_S4096x256_1_0_0_1_n_n 64 rfl rfl).symm k) = ix2 k h := funext fun a => Fin.ext (by
    match a with
    | ⟨0, _⟩ => exact (rhs_tile_0 _ _).trans hk
    | ⟨1, _⟩ => exact rhs_tile_1 _ _)
  rw [el, er]

/-- The reduced index `r` with hidden unit `h` put back is (r, h). -/
theorem lift_row (hR : S4096x256.Reduces [1] S4096) (r : Fin 4096) (k : Fin (S4096x256.size 1)) :
    hR.lift (ix1 r) k = ix2 r (⟨k.val, k.isLt⟩ : Fin 256) := by
  funext c; apply Fin.ext
  fin_cases c <;> rfl

/-- A sum over the 256 columns of a [4096,256] array from the zero pattern, at row `r`. -/
theorem rowSum_apply (src : FVec Ideal S4096x256 .f32) (hR : S4096x256.Reduces [1] S4096) (hφ : FKind.Formats FTy.f32)
    (hacc : (0x00000000#32 : BitVec 32) = 0x00000000#32) (r : Fin 4096) :
    multiReduction .add [1] S4096 src 0x00000000#32 hR hφ hacc (ix1 r) = ∑ h : Fin 256, src (ix2 r h) := by
  refine (Ideal.multiReduction_add_single src 0x00000000#32 hR hφ hacc (ix1 r)).trans ?_
  exact Finset.sum_congr rfl fun k _ => by rw [lift_row]; rfl

/-- A [4096] vector cast to the column [4096,1], read at (r, 0). -/
theorem column_apply {α : Type} (v : S4096.Idx → α) (hC : S4096.ShapeCasts S4096x1) (r : Fin 4096) :
    shapeCast S4096x1 v hC (ix2 r (0 : Fin 1)) = v (ix1 r) :=
  shapeCast_apply v hC (ix2 r (0 : Fin 1)) (ix1 r) (by
    rewrite [Shape.rowMajor_val_two, Shape.rowMajor_val_one]; show r.val = r.val * 1 + 0; omega)

/-- The output row [1,256] broadcast down the 4096 rows, read at (r, h). -/
theorem rowBcast_apply {α : Type} (v : S1x256.Idx → α) (hB : S1x256.Broadcasts S4096x256) (r : Fin 4096) (h : Fin 256) :
    broadcastTo S4096x256 v hB (ix2 r h) = v (ix2 (0 : Fin 1) h) :=
  broadcastTo_apply v hB (ix2 r h) (ix2 (0 : Fin 1) h) (fun a => by
    match a with
    | ⟨0, _⟩ => rfl
    | ⟨1, _⟩ => rfl)

/-- The projection of row `r` of a tile by the two halves of a weight, at hidden unit `h`. -/
def tileProj (s q : FVec Ideal S4096x64 .bf16) (wt wb : FVec Ideal S64x256 .bf16) (r : Fin 4096) (h : Fin 256) : EReal :=
  (∑ k : Fin 64, s (ix2 r k) * wt (ix2 k h)) + ∑ k : Fin 64, q (ix2 r k) * wb (ix2 k h)

/-- THE TILE'S STORED COLUMN at row `r`. -/
theorem pay_apply (s q : FVec Ideal S4096x64 .bf16) (gt gb vt vb : FVec Ideal S64x256 .bf16) (wo : FVec Ideal S1x256 .f32) (r : Fin 4096) :
    k0_pay1 (F := Ideal) s q gt gb vt vb wo (ix2 r (0 : Fin 1))
      = ∑ h : Fin 256, ((tileProj s q gt gb r h * Ideal.logistic (tileProj s q gt gb r h)) * tileProj s q vt vb r h) * wo (ix2 (0 : Fin 1) h) := by
  unfold k0_pay1
  refine (column_apply _ _ r).trans ?_
  refine (rowSum_apply _ _ _ _ r).trans ?_
  refine Finset.sum_congr rfl fun h _ => ?_
  show ((_ + _) * Ideal.logistic (_ + _)) * (_ + _) * _ = _
  rw [shapeCast_self, shapeCast_self, shapeCast_self, shapeCast_self, shapeCast_self, shapeCast_self, shapeCast_self]
  rw [rowBcast_apply, tileDot_apply, tileDot_apply, tileDot_apply, tileDot_apply]
  rfl

end Cert.KernelIdeal.TileValue

end
-- ==== Proof.KBlocks.lean ====
/-
  The kernel's result array after the run, as one function of the arrays the region finds.

  The grid has 256 points; point `t` stages rows `4096·t … 4096·t + 4095` of the two gathered feature arrays, the
  whole of the four half weights and of the output row, and writes back rows `4096·t … 4096·t + 4095` of the
  [1048576, 1] result. So what point `t` writes is block `t` of one whole-array function (`tileScore`), the blocks
  tile the result, and the result array ends holding that function; the host line after the region only drops the
  unit axis.
-/
import proofs.«122343_j19799799234919_1_alg».proof.Proof.Gen.KernelIdeal.Frame
import proofs.«122343_j19799799234919_1_alg».proof.Proof.KPayload
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.TileValue

theorem hz : (![0, 0] : Fin 2 → Nat) = fun _ => 0 := funext fun a => by fin_cases a <;> rfl

/-- The printed index maps over the grid: the two feature windows and the result window sit at block row `t`, the
    weights and the output row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

section Blocks

variable {F : FTy → Type} [FloatOps F]
variable (m : (ℓ : Loc nD τ sig) → Buf (Elt F) ℓ)

/-- Row `r` of the scope window's block at point `t` is row `4096·t + r` of the gathered scope array. -/
theorem scopeBlk_apply (c : Dev nD) (t : Fin cfg0.N) (r : Fin 4096) (k : Fin 64) (e : Fin 1048576)
    (he : e.val = t.val * 4096 + r.val) :
    (iblk m c 0 t : Vec F S4096x64 .bf16) (ix2 r k) = (V m c main_v12 : Vec F S1048576x64 .bf16) (ix2 e k) := by
  obtain ⟨e0, e1, -⟩ := idx_facts t
  unfold iblk
  rw [View.read_apply]
  show V m c main_v12 _ = V m c main_v12 _
  congr 1
  funext a
  apply Fin.ext
  match a with
  | ⟨0, _⟩ => show win0_0.index t 0 * 4096 + 1 * r.val = e.val; rw [e0, he]; omega
  | ⟨1, _⟩ => show win0_0.index t 1 * 64 + 1 * k.val = k.val; rw [e1]; omega

/-- Row `r` of the goal window's block at point `t` is row `4096·t + r` of the gathered goal array. -/
theorem goalBlk_apply (c : Dev nD) (t : Fin cfg0.N) (r : Fin 4096) (k : Fin 64) (e : Fin 1048576)
    (he : e.val = t.val * 4096 + r.val) :
    (iblk m c 1 t : Vec F S4096x64 .bf16) (ix2 r k) = (V m c main_v19 : Vec F S1048576x64 .bf16) (ix2 e k) := by
  obtain ⟨-, -, e0, e1, -⟩ := idx_facts t
  unfold iblk
  rw [View.read_apply]
  show V m c main_v19 _ = V m c main_v19 _
  congr 1
  funext a
  apply Fin.ext
  match a with
  | ⟨0, _⟩ => show win0_1.index t 0 * 4096 + 1 * r.val = e.val; rw [e0, he]; omega
  | ⟨1, _⟩ => show win0_1.index t 1 * 64 + 1 * k.val = k.val; rw [e1]; omega

/-- Each half weight's window is the whole half weight at every point. -/
theorem gateTopBlk (c : Dev nD) (t : Fin cfg0.N) (y : S64x256.Idx) :
    (iblk m c 2 t : Vec F S64x256 .bf16) y = (V m c main_v21 : Vec F S64x256 .bf16) y := by
  obtain ⟨-, -, -, -, e0, e1, -⟩ := idx_facts t
  unfold iblk
  rw [View.read_apply]
  show V m c main_v21 _ = V m c main_v21 _
  congr 1
  funext a
  apply Fin.ext
  match a with
  | ⟨0, _⟩ => show win0_2.index t 0 * 64 + 1 * (y 0).val = (y 0).val; rw [e0]; omega
  | ⟨1, _⟩ => show win0_2.index t 1 * 256 + 1 * (y 1).val = (y 1).val; rw [e1]; omega
theorem gateBotBlk (c : Dev nD) (t : Fin cfg0.N) (y : S64x256.Idx) :
    (iblk m c 3 t : Vec F S64x256 .bf16) y = (V m c main_v23 : Vec F S64x256 .bf16) y := by
  obtain ⟨-, -, -, -, -, -, e0, e1, -⟩ := idx_facts t
  unfold iblk
  rw [View.read_apply]
  show V m c main_v23 _ = V m c main_v23 _
  congr 1
  funext a
  apply Fin.ext
  match a with
  | ⟨0, _⟩ => show win0_3.index t 0 * 64 + 1 * (y 0).val = (y 0).val; rw [e0]; omega
  | ⟨1, _⟩ => show win0_3.index t 1 * 256 + 1 * (y 1).val = (y 1).val; rw [e1]; omega
theorem valTopBlk (c : Dev nD) (t : Fin cfg0.N) (y : S64x256.Idx) :
    (iblk m c 4 t : Vec F S64x256 .bf16) y = (V m c main_v25 : Vec F S64x256 .bf16) y := by
  obtain ⟨-, -, -, -, -, -, -, -, e0, e1, -⟩ := idx_facts t
  unfold iblk
  rw [View.read_apply]
  show V m c main_v25 _ = V m c main_v25 _
  congr 1
  funext a
  apply Fin.ext
  match a with
  | ⟨0, _⟩ => show win0_4.index t 0 * 64 + 1 * (y 0).val = (y 0).val; rw [e0]; omega
  | ⟨1, _⟩ => show win0_4.index t 1 * 256 + 1 * (y 1).val = (y 1).val; rw [e1]; omega
theorem valBotBlk (c : Dev nD) (t : Fin cfg0.N) (y : S64x256.Idx) :
    (iblk m c 5 t : Vec F S64x256 .bf16) y = (V m c main_v27 : Vec F S64x256 .bf16) y := by
  obtain ⟨-, -, -, -, -, -, -, -, -, -, e0, e1, -⟩ := idx_facts t
  unfold iblk
  rw [View.read_apply]
  show V m c main_v27 _ = V m c main_v27 _
  congr 1
  funext a
  apply Fin.ext
  match a with
  | ⟨0, _⟩ => show win0_5.index t 0 * 64 + 1 * (y 0).val = (y 0).val; rw [e0]; omega
  | ⟨1, _⟩ => show win0_5.index t 1 * 256 + 1 * (y 1).val = (y 1).val; rw [e1]; omega
/-- The output row's window is the whole output row at every point. -/
theorem outRowBlk (c : Dev nD) (t : Fin cfg0.N) (y : S1x256.Idx) :
    (iblk m c 6 t : Vec F S1x256 .f32) y = (V m c main_v28 : Vec F S1x256 .f32) y := by
  obtain ⟨-, -, -, -, -, -, -, -, -, -, -, -, e0, e1, -⟩ := idx_facts t
  unfold iblk
  rw [View.read_apply]
  show V m c main_v28 _ = V m c main_v28 _
  congr 1
  funext a
  apply Fin.ext
  match a with
  | ⟨0, _⟩ => show win0_6.index t 0 * 1 + 1 * (y 0).val = (y 0).val; rw [e0]; omega
  | ⟨1, _⟩ => show win0_6.index t 1 * 256 + 1 * (y 1).val = (y 1).val; rw [e1]; omega

end Blocks

/-- Row `e` of the two gathered arrays projected by the two halves of a weight, at hidden unit `h`. -/
def arrProj (A B : Vec Ideal S1048576x64 .bf16) (wt wb : Vec Ideal S64x256 .bf16) (e : Fin 1048576) (h : Fin 256) : EReal :=
  (∑ k : Fin 64, A (ix2 e k) * wt (ix2 k h)) + ∑ k : Fin 64, B (ix2 e k) * wb (ix2 k h)

/-- The whole result column: at edge `e` the gated product summed against the output row. -/
def tileScore (A B : Vec Ideal S1048576x64 .bf16) (gt gb vt vb : Vec Ideal S64x256 .bf16) (wo : Vec Ideal S1x256 .f32) :
    Vec Ideal S1048576x1 .f32 :=
  fun i => ∑ h : Fin 256, ((arrProj A B gt gb (i 0) h * Ideal.logistic (arrProj A B gt gb (i 0) h)) * arrProj A B vt vb (i 0) h)
    * wo (ix2 (0 : Fin 1) h)

variable (m : (ℓ : Loc nD τ sig) → Buf (Elt Ideal) ℓ) (ρ : Dev nD → PrngReg)

/-- The result column as the region's arrays give it. -/
abbrev column (c : Dev nD) : Vec Ideal S1048576x1 .f32 :=
  tileScore (V m c main_v12) (V m c main_v19) (V m c main_v21) (V m c main_v23) (V m c main_v25) (V m c main_v27) (V m c main_v28)

/-- A tile's projection from its blocks is the arrays' projection at the tile's row of the whole. -/
theorem tileProj_gate (c : Dev nD) (t : Fin cfg0.N) (r : Fin 4096) (h : Fin 256) (e : Fin 1048576) (he : e.val = t.val * 4096 + r.val) :
    tileProj (iblk m c 0 t) (iblk m c 1 t) (iblk m c 2 t) (iblk m c 3 t) r h
      = arrProj (V m c main_v12) (V m c main_v19) (V m c main_v21) (V m c main_v23) e h := by
  unfold tileProj arrProj
  exact congrArg₂ (· + ·)
    (Finset.sum_congr rfl fun k _ => congrArg₂ (· * ·) (scopeBlk_apply m c t r k e he) (gateTopBlk m c t (ix2 k h)))
    (Finset.sum_congr rfl fun k _ => congrArg₂ (· * ·) (goalBlk_apply m c t r k e he) (gateBotBlk m c t (ix2 k h)))
theorem tileProj_val (c : Dev nD) (t : Fin cfg0.N) (r : Fin 4096) (h : Fin 256) (e : Fin 1048576) (he : e.val = t.val * 4096 + r.val) :
    tileProj (iblk m c 0 t) (iblk m c 1 t) (iblk m c 4 t) (iblk m c 5 t) r h
      = arrProj (V m c main_v12) (V m c main_v19) (V m c main_v25) (V m c main_v27) e h := by
  unfold tileProj arrProj
  exact congrArg₂ (· + ·)
    (Finset.sum_congr rfl fun k _ => congrArg₂ (· * ·) (scopeBlk_apply m c t r k e he) (valTopBlk m c t (ix2 k h)))
    (Finset.sum_congr rfl fun k _ => congrArg₂ (· * ·) (goalBlk_apply m c t r k e he) (valBotBlk m c t (ix2 k h)))

/-- WHAT POINT `t` WRITES BACK is block `t` of the result column. -/
theorem flushed_eq (c : Dev nD) (t : Fin cfg0.N) :
    (dats m 0 c).flushed 7 t = ((cfg0.win 7).blk t).view.read (Elt Ideal) (column m c) := by
  show (cfg0.win 7).cut (grid0.coords t) ((dats m 0 c).after 7 t) = _
  rw [after0_7]
  unfold out0_7
  rw [View.canon_unit_zero hz]
  simp only [View.ld_unit_zero (S := S4096x64) hz, View.ld_unit_zero (S := S64x256) hz, View.ld_unit_zero (S := S1x256) hz]
  obtain ⟨-, -, -, -, -, -, -, -, -, -, -, -, -, -, e0, e1⟩ := idx_facts t
  funext y
  obtain ⟨r, u, rfl⟩ : ∃ (r : Fin 4096) (u : Fin 1), y = ix2 r u := ⟨y 0, y 1, eq_ix2 y⟩
  obtain rfl : u = 0 := Subsingleton.elim _ _
  refine (pay_apply (iblk m c 0 t) (iblk m c 1 t) (iblk m c 2 t) (iblk m c 3 t) (iblk m c 4 t) (iblk m c 5 t) (iblk m c 6 t) r).trans ?_
  rw [View.read_apply]
  have he : ((((cfg0.win 7).blk t).view.emb (ix2 r (0 : Fin 1)) : S1048576x1.Idx) 0).val = t.val * 4096 + r.val := by
    show win0_7.index t 0 * 4096 + 1 * r.val = _
    rw [e0]; omega
  unfold column tileScore
  refine Finset.sum_congr rfl fun h _ => ?_
  rw [tileProj_gate m c t r h _ he, tileProj_val m c t r h _ he]
  exact congrArg (_ * ·) (outRowBlk m c t (ix2 (0 : Fin 1) h))

/-- An index of the result is in point `t`'s block iff each coordinate is in the block's range on its axis. -/
theorem mem_blk (t : Fin cfg0.N) (i : S1048576x1.Idx) :
    i ∈ ((cfg0.win 7).blk t).view.set ↔ ∀ a : Fin 2, win0_7.index t a * S4096x1.size a ≤ (i a).val ∧ (i a).val < win0_7.index t a * S4096x1.size a + S4096x1.size a := by
  show i ∈ ((View.whole main_v29).slice (win0_7.rect t)).set ↔ _
  rw [View.set_slice_whole, Rect.mem_set_unit]
  exact Iff.rfl

/-- Every edge's entry is written by the point that holds its tile. -/
theorem covered (i : S1048576x1.Idx) :
    ∃ t : Fin cfg0.N, (cfg0.win 7).flush t = true ∧ i ∈ ((cfg0.win 7).blk t).view.set := by
  have hN : cfg0.N = 256 := N_0
  have hi0 : (i 0).val < 1048576 := (i 0).isLt
  have hi1 : (i 1).val < 1 := (i 1).isLt
  have ht : (i 0).val / 4096 < cfg0.N := by rw [hN]; omega
  obtain ⟨-, -, -, -, -, -, -, -, -, -, -, -, -, -, e0, e1⟩ := idx_facts ⟨(i 0).val / 4096, ht⟩
  refine ⟨⟨(i 0).val / 4096, ht⟩, flush0_7 _, ?_⟩
  rw [mem_blk]
  intro a
  match a with
  | ⟨0, _⟩ =>
    show win0_7.index ⟨(i 0).val / 4096, ht⟩ (0 : Fin 2) * 4096 ≤ (i 0).val ∧ (i 0).val < win0_7.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win0_7.index ⟨(i 0).val / 4096, ht⟩ (1 : Fin 2) * 1 ≤ (i 1).val ∧ (i 1).val < win0_7.index ⟨(i 0).val / 4096, ht⟩ (1 : Fin 2) * 1 + 1
    rw [e1]; omega

/-- So the result array ends holding the column. -/
theorem final (c : Dev nD) : (dats m 0 c).arrAt 7 cfg0.N = column m c :=
  (dats m 0 c).arrAt_eq_of_cover 7 (column m c) (fun t _ => flushed_eq m c t) covered

/-- The program's result: the column with its unit axis dropped. -/
abbrev result (c : Dev nD) : Vec Ideal S1048576 .f32 :=
  shapeCast S1048576 (column m c) shapeCasts_S1048576x1_S1048576

/-- The host line after the region reads the region's result array. -/
theorem tail_eq (c : Dev nD) :
    Pipeline.afterTail₀ cfgs (dats m) 0 (V0 m) [hostOps1] c main_v30 = result m c := by
  unfold Pipeline.afterTail₀
  show StableHlo.after hostOps1 _ (Proc.devRef .tc main_v30) = _
  after_results
  exact congrArg (shapeCast S1048576 · shapeCasts_S1048576x1_S1048576)
    ((Pipeline.withArrays_arr spec0 launch0.win.arr_inj c _ _ 7).trans (final m c))

/-- The run, read: the result at the column with its unit axis dropped, the arguments unchanged. -/
theorem run : θ_run defs (onTc (τ := τ) (main (F := Ideal))) ⟨m, fun _ => 0, ρ⟩ fun r => ∀ c : Dev nD,
      r.2.mem ((c.tc : Thread nD τ).loc main_v30) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(((h c).2 main_v30 (Pipeline.mem_restRefs_of main_v30 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.ArrayValue

end
-- ==== Proof.Spec.lean ====
/-
  The edge scorer as one function of its five arrays, over the extended reals.

  For an edge `e` the two gathered feature rows `A e ·` (scope) and `B e ·` (goal), each of width 64, are
  projected by a [128, 256] weight whose first 64 rows meet the scope row and whose last 64 rows meet the goal row:
  `proj A B W e h = ∑ k < 64, A[e,k]·W[k,h] + ∑ k < 64, B[e,k]·W[64+k,h]`. The score is the gated product summed
  against the output column: `∑ h < 256, ((g·σ(g))·v)·Wo[h,0]` with `g = proj A B Wg e h`, `v = proj A B Wi e h` and
  `σ x = 1/(1 + e^(−x))`.

  Only commutative-monoid laws of `+` are used (a sum over 128 positions split into its two halves), so nothing here
  asks the entries to be finite.
-/
import Idealize.ShloMosaic.PureOps.Ideal
import Idealize.ShloMosaic.PureOps.Ideal.Laws
import Idealize.ShloMosaic.Lib.ValueIdx

noncomputable section

open scoped BigOperators

namespace Cert.EdgeScore

open Idealize.ShloMosaic Idealize.ShloMosaic.ValueIdx

/-- Position `k` of the first half of a 128-long axis. -/
def lo (k : Fin 64) : Fin 128 := ⟨k.val, by omega⟩
/-- Position `k` of the second half of a 128-long axis. -/
def hi (k : Fin 64) : Fin 128 := ⟨64 + k.val, by omega⟩

@[simp] theorem lo_val (k : Fin 64) : (lo k).val = k.val := rfl
@[simp] theorem hi_val (k : Fin 64) : (hi k).val = 64 + k.val := rfl

/-- A sum over 128 positions is the sum over its first 64 plus the sum over its last 64. -/
theorem sum_halves {M : Type} [AddCommMonoid M] (f : Fin 128 → M) :
    ∑ k : Fin 128, f k = ∑ k : Fin 64, f (lo k) + ∑ k : Fin 64, f (hi k) := by
  have h := Fin.sum_univ_add (a := 64) (b := 64) (f := f)
  refine h.trans ?_
  congr 1

/-- A feature row pair projected by a [128, 256] weight, at hidden unit `h`. -/
def proj (A B : (⟨2, ![1048576, 64]⟩ : Shape).Idx → EReal) (W : (⟨2, ![128, 256]⟩ : Shape).Idx → EReal)
    (e : Fin 1048576) (h : Fin 256) : EReal :=
  (∑ k : Fin 64, A (ix2 e k) * W (ix2 (lo k) h)) + ∑ k : Fin 64, B (ix2 e k) * W (ix2 (hi k) h)

/-- The score of edge `e`. -/
def score (A B : (⟨2, ![1048576, 64]⟩ : Shape).Idx → EReal) (Wg Wi : (⟨2, ![128, 256]⟩ : Shape).Idx → EReal)
    (Wo : (⟨2, ![256, 1]⟩ : Shape).Idx → EReal) (e : Fin 1048576) : EReal :=
  ∑ h : Fin 256, ((proj A B Wg e h * Ideal.logistic (proj A B Wg e h)) * proj A B Wi e h) * Wo (ix2 h (0 : Fin 1))

/-- The pattern of the float one denotes the real one. -/
theorem ofBits_one : Ideal.ofBits .f32 0x3F800000#32 = 1 := by
  simp [Ideal.ofBits, Ideal.ieee, -EReal.coe_mul]; norm_num

end Cert.EdgeScore

end
-- ==== Proof.RefRead.lean ====
/-
  The reference's result, read at one edge.

  The reference joins the scope row and the goal row of an edge into one row of width 128 and contracts it with a
  whole [128, 256] weight. Position `k < 64` of the joined row is the scope row's entry `k` and position `64 + k`
  the goal row's entry `k`, so the contraction over 128 positions is the sum of the two contractions over 64 against
  the weight's upper and lower halves: the reference's pre-activations are the specification's `proj`. Its gate
  `x · (1 / (1 + e^(−x)))` is `x · σ(x)`, and the last contraction, against the [256, 1] output weight, is the sum
  over the hidden units.
-/
import proofs.«122343_j19799799234919_1_alg».proof.Proof.Gen.ReferenceIdeal.Read
import proofs.«122343_j19799799234919_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.EdgeScore

variable (x0 : (⟨S64x1024x64, .f32⟩ : BufTy).Contents (Elt Ideal)) (x1 x2 : (⟨S128x256, .f32⟩ : BufTy).Contents (Elt Ideal))
  (x3 : (⟨S256x1, .f32⟩ : BufTy).Contents (Elt Ideal)) (x4 : (⟨S2x1048576, .i32⟩ : BufTy).Contents (Elt Ideal))

/-- The gathered scope rows. -/
abbrev scopeRows : S1048576x64.Idx → EReal := val_main_v11 (F := Ideal) x0 x4
/-- The gathered goal rows. -/
abbrev goalRows : S1048576x64.Idx → EReal := val_main_v18 (F := Ideal) x0 x4

/-- The joined row at a position of its first half is the scope row there. -/
theorem joined_lo (e : Fin 1048576) (k : Fin 64) :
    val_main_v19 (F := Ideal) x0 x4 (ix2 e (lo k)) = scopeRows x0 x4 (ix2 e k) := by
  unfold val_main_v19
  refine concatenate_pair_apply_left (1 : Fin S1048576x128.rank) _ _ concatenates_S1048576x64_S1048576x64_S1048576x128_d1
    (ix2 e (lo k)) rfl (ix2 e k) (fun b => ?_)
  match b with
  | ⟨0, _⟩ => rfl
  | ⟨1, _⟩ => rfl

/-- The joined row at a position of its second half is the goal row there. -/
theorem joined_hi (e : Fin 1048576) (k : Fin 64) :
    val_main_v19 (F := Ideal) x0 x4 (ix2 e (hi k)) = goalRows x0 x4 (ix2 e k) := by
  unfold val_main_v19
  have hrest : ∀ b : Fin S1048576x64.rank, b.cast (rfl : S1048576x64.rank = S1048576x128.rank) ≠ (1 : Fin 2) →
      ((ix2 e k : S1048576x64.Idx) b).val = ((ix2 e (hi k) : S1048576x128.Idx) (b.cast rfl)).val := by
    intro b hb
    match b with
    | ⟨0, _⟩ => rfl
    | ⟨1, _⟩ => exact absurd rfl hb
  have hax : ((ix2 e k : S1048576x64.Idx) ((1 : Fin 2).cast (rfl : S1048576x64.rank = S1048576x128.rank).symm)).val
      + S1048576x64.size ((1 : Fin 2).cast (rfl : S1048576x64.rank = S1048576x128.rank).symm)
      = ((ix2 e (hi k) : S1048576x128.Idx) 1).val := by
    show k.val + 64 = 64 + k.val
    omega
  exact concatenate_pair_apply_right (t := S1048576x128) (s₁ := S1048576x64) (s₂ := S1048576x64) (1 : Fin 2)
    (val_main_v11 (F := Ideal) x0 x4) (val_main_v18 (F := Ideal) x0 x4) concatenates_S1048576x64_S1048576x64_S1048576x128_d1
    (ix2 e (hi k)) rfl rfl (ix2 e k) hrest hax

/-- The joined row contracted with a [128, 256] weight is the two halves' contractions added. -/
theorem joined_proj (W : S128x256.Idx → EReal) (e : Fin 1048576) (h : Fin 256) :
    ∑ k : Fin 128, val_main_v19 (F := Ideal) x0 x4 (ix2 e k) * W (ix2 k h)
      = proj (scopeRows x0 x4) (goalRows x0 x4) W e h := by
  rw [sum_halves]
  unfold proj
  exact congrArg₂ (· + ·)
    (Finset.sum_congr rfl fun k _ => congrArg (· * _) (joined_lo x0 x4 e k))
    (Finset.sum_congr rfl fun k _ => congrArg (· * _) (joined_hi x0 x4 e k))

/-- The gate pre-activation at (e, h). -/
theorem gate_apply (e : Fin 1048576) (h : Fin 256) :
    val_main_v20 (F := Ideal) x0 x1 x4 (ix2 e h) = proj (scopeRows x0 x4) (goalRows x0 x4) x1 e h := by
  rw [val_main_v20_apply, ← joined_proj]
  refine Finset.sum_congr rfl fun k _ => ?_
  have el : lidx_main_v20 (ix2 e h) k = ix2 e k := funext fun a => by
    match a with
    | ⟨0, _⟩ => rfl
    | ⟨1, _⟩ => rfl
  have er : ridx_main_v20 (ix2 e h) k = ix2 k h := funext fun a => by
    match a with
    | ⟨0, _⟩ => rfl
    | ⟨1, _⟩ => rfl
  rw [el, er]

/-- The value pre-activation at (e, h). -/
theorem value_apply (e : Fin 1048576) (h : Fin 256) :
    val_main_v22 (F := Ideal) x0 x2 x4 (ix2 e h) = proj (scopeRows x0 x4) (goalRows x0 x4) x2 e h := by
  rw [val_main_v22_apply, ← joined_proj]
  refine Finset.sum_congr rfl fun k _ => ?_
  have el : lidx_main_v22 (ix2 e h) k = ix2 e k := funext fun a => by
    match a with
    | ⟨0, _⟩ => rfl
    | ⟨1, _⟩ => rfl
  have er : ridx_main_v22 (ix2 e h) k = ix2 k h := funext fun a => by
    match a with
    | ⟨0, _⟩ => rfl
    | ⟨1, _⟩ => rfl
  rw [el, er]

/-- The reference's gate `x · (1 / (1 + e^(−x)))` is `x · σ(x)`. -/
theorem gated_apply (j : S1048576x256.Idx) :
    val_main_v21 (F := Ideal) x0 x1 x4 j
      = val_main_v20 (F := Ideal) x0 x1 x4 j * Ideal.logistic (val_main_v20 (F := Ideal) x0 x1 x4 j) := by
  rw [val_main_v21_apply, val_main_call0_v5_apply, val_main_call0_v4_apply, val_main_call0_cst_0_apply,
    val_main_call0_v3_apply, val_main_call0_v2_apply, val_main_call0_cst_apply, val_main_call0_v1_apply,
    val_main_call0_v0_apply]
  show _ * Ideal.div (Ideal.ofBits .f32 0x3F800000#32) (Ideal.ofBits .f32 0x3F800000#32 + Ideal.exp (-_)) = _
  rw [ofBits_one]
  rfl

/-- THE REFERENCE'S RESULT at edge `e`. -/
theorem result_apply (e : Fin 1048576) :
    val_main_v25 (F := Ideal) x0 x1 x2 x3 x4 (ix1 e)
      = score (scopeRows x0 x4) (goalRows x0 x4) x1 x2 x3 e := by
  rw [val_main_v25_apply, val_main_v24_apply]
  unfold score
  refine Finset.sum_congr rfl fun h _ => ?_
  have el : lidx_main_v24 (idx_main_v25 (ix1 e)) h = ix2 e h := funext fun a => Fin.ext (by
    match a with
    | ⟨0, _⟩ => exact Nat.div_one _
    | ⟨1, _⟩ => rfl)
  have er : ridx_main_v24 (idx_main_v25 (ix1 e)) h = ix2 h (0 : Fin 1) := funext fun a => Fin.ext (by
    match a with
    | ⟨0, _⟩ => rfl
    | ⟨1, _⟩ => rfl)
  rw [el, er, val_main_v23_apply, gated_apply, gate_apply, value_apply]
  rfl

end Cert.ReferenceIdeal.RefValue

end
-- ==== Proof.Bridge.lean ====
/-
  The kernel's result and the reference's are one function of the arguments.

  Before the region the kernel's host lines gather the scope and goal rows of every edge from the flattened feature
  table (after a change of float format, the identity on extended reals) with the same index arithmetic as the
  reference, cut each [128, 256] weight into its upper and lower [64, 256] halves, and lay the [256, 1] output weight
  out as a [1, 256] row. So the arrays the region finds are the reference's gathered rows, rows `k` and `64 + k` of
  the weights, and the output weight read across; with these the kernel's result column is the specification's
  `score`, which is also what the reference computes.
-/
import proofs.«122343_j19799799234919_1_alg».proof.Proof.KBlocks
import proofs.«122343_j19799799234919_1_alg».proof.Proof.RefRead

set_option maxRecDepth 16384

noncomputable section

open scoped BigOperators
open Idealize.ShloMosaic Idealize.ShloMosaic.TcCoe Idealize.SL.Sem Idealize.ShloMosaic.ValueIdx

namespace Cert.KernelIdeal.HostArrays

open Cert.KernelIdeal Cert.KernelIdeal.Gen Cert.KernelIdeal.ArrayValue Cert.EdgeScore

variable (m : (ℓ : Loc nD τ sig) → Buf (Elt Ideal) ℓ)

/-- The scope rows the region finds are the reference's gathered scope rows. -/
theorem scope_eq (c : Dev nD) :
    (V m c main_v12 : Vec Ideal S1048576x64 .bf16)
      = Cert.ReferenceIdeal.Read.val_main_v11 (F := Ideal) (m ((c : Thread nD τ).loc main_arg0)) (m ((c : Thread nD τ).loc main_arg4)) := by
  show StableHlo.after hostOps0 (fun b => m (c, b)) (Proc.devRef .tc main_v12) = _
  after_results
  unfold Cert.ReferenceIdeal.Read.val_main_v11 Cert.ReferenceIdeal.Read.val_main_v0 Cert.ReferenceIdeal.Read.val_main_v10
    Cert.ReferenceIdeal.Read.val_main_v9 Cert.ReferenceIdeal.Read.val_main_v8 Cert.ReferenceIdeal.Read.val_main_v7
    Cert.ReferenceIdeal.Read.val_main_c_0 Cert.ReferenceIdeal.Read.val_main_v6 Cert.ReferenceIdeal.Read.val_main_v5
    Cert.ReferenceIdeal.Read.val_main_c Cert.ReferenceIdeal.Read.val_main_v2 Cert.ReferenceIdeal.Read.val_main_v1
  rfl

/-- The goal rows the region finds are the reference's gathered goal rows. -/
theorem goal_eq (c : Dev nD) :
    (V m c main_v19 : Vec Ideal S1048576x64 .bf16)
      = Cert.ReferenceIdeal.Read.val_main_v18 (F := Ideal) (m ((c : Thread nD τ).loc main_arg0)) (m ((c : Thread nD τ).loc main_arg4)) := by
  show StableHlo.after hostOps0 (fun b => m (c, b)) (Proc.devRef .tc main_v19) = _
  after_results
  unfold Cert.ReferenceIdeal.Read.val_main_v18 Cert.ReferenceIdeal.Read.val_main_v0 Cert.ReferenceIdeal.Read.val_main_v17
    Cert.ReferenceIdeal.Read.val_main_v16 Cert.ReferenceIdeal.Read.val_main_v15 Cert.ReferenceIdeal.Read.val_main_v14
    Cert.ReferenceIdeal.Read.val_main_c_2 Cert.ReferenceIdeal.Read.val_main_v13 Cert.ReferenceIdeal.Read.val_main_v12
    Cert.ReferenceIdeal.Read.val_main_c_1 Cert.ReferenceIdeal.Read.val_main_v4 Cert.ReferenceIdeal.Read.val_main_v3
  rfl

/-- The upper half of the gate weight: its rows 0 … 63. -/
theorem gateTop_apply (c : Dev nD) (k : Fin 64) (h : Fin 256) :
    (V m c main_v21 : Vec Ideal S64x256 .bf16) (ix2 k h) = (m ((c : Thread nD τ).loc main_arg1) : Vec Ideal S128x256 .f32) (ix2 (lo k) h) := by
  have e : @Eq (Vec Ideal S64x256 .bf16) (V m c main_v21)
      (extractStridedSlice S64x256 ![0, 0] (m ((c : Thread nD τ).loc main_arg1) : Vec Ideal S128x256 .f32) slices_S128x256_S64x256_0_0) := by
    show StableHlo.after hostOps0 (fun b => m (c, b)) (Proc.devRef .tc main_v21) = _
    after_results <;> rfl
  rw [e]
  show extractStridedSlice S64x256 ![0, 0] (m ((c : Thread nD τ).loc main_arg1)) slices_S128x256_S64x256_0_0 (ix2 k h) = _
  exact extractStridedSlice_apply _ _ _ (ix2 k h) (ix2 (lo k) h) (fun a => by
    match a with
    | ⟨0, _⟩ => show k.val = 0 + k.val; omega
    | ⟨1, _⟩ => show h.val = 0 + h.val; omega)

/-- The lower half of the gate weight: its rows 64 … 127. -/
theorem gateBot_apply (c : Dev nD) (k : Fin 64) (h : Fin 256) :
    (V m c main_v23 : Vec Ideal S64x256 .bf16) (ix2 k h) = (m ((c : Thread nD τ).loc main_arg1) : Vec Ideal S128x256 .f32) (ix2 (hi k) h) := by
  have e : @Eq (Vec Ideal S64x256 .bf16) (V m c main_v23)
      (extractStridedSlice S64x256 ![64, 0] (m ((c : Thread nD τ).loc main_arg1) : Vec Ideal S128x256 .f32) slices_S128x256_S64x256_64_0) := by
    show StableHlo.after hostOps0 (fun b => m (c, b)) (Proc.devRef .tc main_v23) = _
    after_results <;> rfl
  rw [e]
  show extractStridedSlice S64x256 ![64, 0] (m ((c : Thread nD τ).loc main_arg1)) slices_S128x256_S64x256_64_0 (ix2 k h) = _
  exact extractStridedSlice_apply _ _ _ (ix2 k h) (ix2 (hi k) h) (fun a => by
    match a with
    | ⟨0, _⟩ => show 64 + k.val = 64 + k.val; rfl
    | ⟨1, _⟩ => show h.val = 0 + h.val; omega)

/-- The upper half of the value weight. -/
theorem valTop_apply (c : Dev nD) (k : Fin 64) (h : Fin 256) :
    (V m c main_v25 : Vec Ideal S64x256 .bf16) (ix2 k h) = (m ((c : Thread nD τ).loc main_arg2) : Vec Ideal S128x256 .f32) (ix2 (lo k) h) := by
  have e : @Eq (Vec Ideal S64x256 .bf16) (V m c main_v25)
      (extractStridedSlice S64x256 ![0, 0] (m ((c : Thread nD τ).loc main_arg2) : Vec Ideal S128x256 .f32) slices_S128x256_S64x256_0_0) := by
    show StableHlo.after hostOps0 (fun b => m (c, b)) (Proc.devRef .tc main_v25) = _
    after_results <;> rfl
  rw [e]
  show extractStridedSlice S64x256 ![0, 0] (m ((c : Thread nD τ).loc main_arg2)) slices_S128x256_S64x256_0_0 (ix2 k h) = _
  exact extractStridedSlice_apply _ _ _ (ix2 k h) (ix2 (lo k) h) (fun a => by
    match a with
    | ⟨0, _⟩ => show k.val = 0 + k.val; omega
    | ⟨1, _⟩ => show h.val = 0 + h.val; omega)

/-- The lower half of the value weight. -/
theorem valBot_apply (c : Dev nD) (k : Fin 64) (h : Fin 256) :
    (V m c main_v27 : Vec Ideal S64x256 .bf16) (ix2 k h) = (m ((c : Thread nD τ).loc main_arg2) : Vec Ideal S128x256 .f32) (ix2 (hi k) h) := by
  have e : @Eq (Vec Ideal S64x256 .bf16) (V m c main_v27)
      (extractStridedSlice S64x256 ![64, 0] (m ((c : Thread nD τ).loc main_arg2) : Vec Ideal S128x256 .f32) slices_S128x256_S64x256_64_0) := by
    show StableHlo.after hostOps0 (fun b => m (c, b)) (Proc.devRef .tc main_v27) = _
    after_results <;> rfl
  rw [e]
  show extractStridedSlice S64x256 ![64, 0] (m ((c : Thread nD τ).loc main_arg2)) slices_S128x256_S64x256_64_0 (ix2 k h) = _
  exact extractStridedSlice_apply _ _ _ (ix2 k h) (ix2 (hi k) h) (fun a => by
    match a with
    | ⟨0, _⟩ => show 64 + k.val = 64 + k.val; rfl
    | ⟨1, _⟩ => show h.val = 0 + h.val; omega)

/-- The output row is the output weight read across. -/
theorem outRow_apply (c : Dev nD) (h : Fin 256) :
    (V m c main_v28 : Vec Ideal S1x256 .f32) (ix2 (0 : Fin 1) h) = (m ((c : Thread nD τ).loc main_arg3) : Vec Ideal S256x1 .f32) (ix2 h (0 : Fin 1)) := by
  have e : @Eq (Vec Ideal S1x256 .f32) (V m c main_v28)
      (transpose S1x256 [1, 0] (m ((c : Thread nD τ).loc main_arg3)) transposes_S256x1_S1x256_1_0) := by
    show StableHlo.after hostOps0 (fun b => m (c, b)) (Proc.devRef .tc main_v28) = _
    after_results <;> rfl
  rw [e]
  exact transpose_apply _ _ _ (ix2 (0 : Fin 1) h) (ix2 h (0 : Fin 1)) (fun b => by
    match b with
    | ⟨0, _⟩ => rfl
    | ⟨1, _⟩ => rfl)

/-- Against half weights that are rows `k` and `64 + k` of a whole weight, the arrays' projection is the specification's
    projection by the whole weight. -/
theorem arrProj_eq (A B : Vec Ideal S1048576x64 .bf16) (wt wb : Vec Ideal S64x256 .bf16) (W : Vec Ideal S128x256 .f32)
    (ht : ∀ (k : Fin 64) (h : Fin 256), wt (ix2 k h) = W (ix2 (lo k) h))
    (hb : ∀ (k : Fin 64) (h : Fin 256), wb (ix2 k h) = W (ix2 (hi k) h)) (e : Fin 1048576) (h : Fin 256) :
    arrProj A B wt wb e h = proj A B W e h := by
  unfold arrProj proj
  exact congrArg₂ (· + ·)
    (Finset.sum_congr rfl fun k _ => congrArg (A (ix2 e k) * ·) (ht k h))
    (Finset.sum_congr rfl fun k _ => congrArg (B (ix2 e k) * ·) (hb k h))

/-- THE KERNEL'S RESULT at edge `e` is the specification's score over the reference's gathered rows. -/
theorem result_apply (c : Dev nD) (e : Fin 1048576) :
    result m c (ix1 e)
      = score (Cert.ReferenceIdeal.Read.val_main_v11 (F := Ideal) (m ((c : Thread nD τ).loc main_arg0)) (m ((c : Thread nD τ).loc main_arg4)))
          (Cert.ReferenceIdeal.Read.val_main_v18 (F := Ideal) (m ((c : Thread nD τ).loc main_arg0)) (m ((c : Thread nD τ).loc main_arg4)))
          (m ((c : Thread nD τ).loc main_arg1)) (m ((c : Thread nD τ).loc main_arg2)) (m ((c : Thread nD τ).loc main_arg3)) e := by
  rw [← scope_eq m c, ← goal_eq m c]
  refine (shapeCast_apply (column m c) shapeCasts_S1048576x1_S1048576 (ix1 e) (ix2 e (0 : Fin 1)) (by
    rewrite [Shape.rowMajor_val_two, Shape.rowMajor_val_one]; show e.val * 1 + 0 = e.val; omega)).trans ?_
  unfold column tileScore score
  refine Finset.sum_congr rfl fun h _ => ?_
  rw [arrProj_eq (V m c main_v12) (V m c main_v19) (V m c main_v21) (V m c main_v23) (m ((c : Thread nD τ).loc main_arg1))
      (gateTop_apply m c) (gateBot_apply m c) e h,
    arrProj_eq (V m c main_v12) (V m c main_v19) (V m c main_v25) (V m c main_v27) (m ((c : Thread nD τ).loc main_arg2))
      (valTop_apply m c) (valBot_apply m c) e h]
  exact congrArg (_ * ·) (outRow_apply m c h)

end Cert.KernelIdeal.HostArrays

end
-- ==== Proof.lean ====
/-
  Scoring the edges of a graph by a gated two-layer network, kernel against reference, over the extended reals.

  Both programs gather, for each of 1048576 edges, the scope row and the goal row (64 features each) of a flattened
  [65536, 64] feature table. The reference joins the two rows into one of width 128, contracts it with the
  [128, 256] gate and value weights, forms `(g · 1/(1 + e^(−g))) · v` and contracts with the [256, 1] output
  weight. The kernel never joins the rows: per tile of 4096 edges it multiplies the scope rows by the upper 64 rows
  of each weight and the goal rows by the lower 64 rows and adds the two products, applies `g · σ(g) · v`, scales by
  the output weight laid out as a row and sums the 256 hidden units.

  The two agree because a sum over the 128 joined positions is the sum over its first 64 plus the sum over its last
  64 (commutative-monoid laws only, so infinities need no care and the finiteness of the inputs is never used), the
  logistic function is by definition `1/(1 + e^(−x))`, a change of float format is the identity on extended reals,
  and gathering commutes with it. The specification is `Cert.EdgeScore.score` (Proof/Spec.lean); the kernel's tile at
  a row is Proof/KPayload.lean, its blocks assembled into the whole result Proof/KBlocks.lean, the reference read at an
  edge Proof/RefRead.lean, and the arrays the kernel's host lines build Proof/Bridge.lean.

  The three frames: the kernel's two are the generated frame runs; the reference's is its run with the result dropped.
  The idealization rewrote nothing, so `preserves` is `True`.
-/
import proofs.«122343_j19799799234919_1_alg».proof.Defs
import proofs.«122343_j19799799234919_1_alg».proof.Proof.Gen.Kernel
import proofs.«122343_j19799799234919_1_alg».proof.Proof.Gen.Kernel.Skeleton
import proofs.«122343_j19799799234919_1_alg».proof.Proof.Gen.Kernel.Launch
import proofs.«122343_j19799799234919_1_alg».proof.Proof.Gen.Kernel.Points
import proofs.«122343_j19799799234919_1_alg».proof.Proof.Gen.Kernel.Frame
import proofs.«122343_j19799799234919_1_alg».proof.Proof.Gen.KernelIdeal
import proofs.«122343_j19799799234919_1_alg».proof.Proof.Gen.KernelIdeal.Skeleton
import proofs.«122343_j19799799234919_1_alg».proof.Proof.Gen.KernelIdeal.Launch
import proofs.«122343_j19799799234919_1_alg».proof.Proof.Gen.KernelIdeal.Points
import proofs.«122343_j19799799234919_1_alg».proof.Proof.Gen.KernelIdeal.Frame
import proofs.«122343_j19799799234919_1_alg».proof.Proof.Gen.ReferenceIdeal
import proofs.«122343_j19799799234919_1_alg».proof.Proof.Gen.Pre_finite_inputs
import proofs.«122343_j19799799234919_1_alg».proof.Proof.Gen.ReferenceIdeal.Run
import proofs.«122343_j19799799234919_1_alg».proof.Proof.Gen.ReferenceIdeal.Read
import proofs.«122343_j19799799234919_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the score of every edge: the kernel's result
    column with its unit axis dropped and the reference's result are `score` of the same gathered rows and weights. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2.1, (hagree c).2.2.2.1,
    (hagree c).2.2.2.2]
  funext i
  obtain ⟨e, rfl⟩ : ∃ e : Fin 1048576, i = ix1 e := ⟨i 0, eq_ix1 i⟩
  rw [Cert.ReferenceIdeal.RefValue.result_apply]
  exact (Cert.KernelIdeal.HostArrays.result_apply m c e).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
